-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S131072x64 .f32) (main_arg1 : FVec F S512x64 .f32) (main_arg2 : FVec F S512 .f32) (main_arg3 : FVec F S512x16 .f32) (main_arg4 : FVec F S16 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg4 main_v13 main_v16
-- ==== Kernel.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩
abbrev S512x1 : Shape := ⟨2, ![512, 1]⟩
abbrev S1x512 : Shape := ⟨2, ![1, 512]⟩
abbrev S1x16 : Shape := ⟨2, ![1, 16]⟩
abbrev S131072x16 : Shape := ⟨2, ![131072, 16]⟩
abbrev S2048x64 : Shape := ⟨2, ![2048, 64]⟩
abbrev S2048x16 : Shape := ⟨2, ![2048, 16]⟩
abbrev S2048 : Shape := ⟨1, ![2048]⟩
abbrev S2048x1 : Shape := ⟨2, ![2048, 1]⟩
abbrev S64x512 : Shape := ⟨2, ![64, 512]⟩
abbrev S2048x512 : Shape := ⟨2, ![2048, 512]⟩

abbrev nBuf : Space → Nat
  | .hbm => 13
  | .vmem => 9
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x512, .f32⟩
  | .hbm, ⟨10, _⟩ => ⟨S1x512, .f32⟩
  | .hbm, ⟨11, _⟩ => ⟨S1x16, .f32⟩
  | .hbm, ⟨12, _⟩ => ⟨S131072x16, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S512x16, .f32⟩
  | .local _ .vmem, ⟨6, _⟩ => ⟨S1x16, .f32⟩
  | .local _ .vmem, ⟨7, _⟩ => ⟨S2048x16, .f32⟩
  | .local _ .vmem, ⟨8, _⟩ => ⟨S2048x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x64_S512_d1 : S512x64.ReducesTo [1] S512
  h_S_ : 0 < S_.numel
  bcast_S512_S512x1_0 : S512.BroadcastsInDim S512x1 (![0] : Fin 1 → Fin S512x1.rank)
  shapeCasts_S512x1_S1x512 : S512x1.ShapeCasts S1x512
  shapeCasts_S512_S1x512 : S512.ShapeCasts S1x512
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  reduces_S2048x64_S2048 : S2048x64.Reduces [1] S2048
  shapeCasts_S2048_S2048x1 : S2048.ShapeCasts S2048x1
  bitsLt_bf16_f32 : FTy.bits .bf16 < FTy.bits .f32
  transposes_S512x64_p1_0_S64x512 : S512x64.Transposes [1, 0] S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  dot_S2048x64_S64x512_S2048x512_1_0_0_1_n_n_wf : DotDims.WF S2048x64 S64x512 S2048x512 [1] [0] [0] [1] [] []
  dot_S2048x512_S512x16_S2048x16_1_0_0_1_n_n_wf : DotDims.WF S2048x512 S512x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S512x16.size a
  hwx0_4 : ∀ i : grid0.Coords, EltTy.bits .f32 = 32 ∨ (Rect.block (s := S512x16) S512x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x16.size a ≤ S131072x16.size a
  hwx0_6 : ∀ i : grid0.Coords, EltTy.bits .f32 = 32 ∨ (Rect.block (s := S131072x16) S2048x16.size (cc0_transform_6 i) (hinb0_6 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S512 : Shape := ⟨1, ![512]⟩
abbrev S512x16 : Shape := ⟨2, ![512, 16]⟩
abbrev S16 : Shape := ⟨1, ![16]⟩
abbrev S_ : Shape := ⟨0, ![]⟩
abbrev S131072 : Shape := ⟨1, ![131072]⟩
abbrev S131072x1 : Shape := ⟨2, ![131072, 1]⟩
abbrev S1x512 : Shape := ⟨2, ![1, 512]⟩
abbrev S131072x512 : Shape := ⟨2, ![131072, 512]⟩
abbrev S64x512 : Shape := ⟨2, ![64, 512]⟩
abbrev S131072x16 : Shape := ⟨2, ![131072, 16]⟩
abbrev S1x16 : Shape := ⟨2, ![1, 16]⟩

abbrev nBuf : Space → Nat
  | .hbm => 40
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S131072x64, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S64x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S131072x16, .f32⟩
  | .hbm, ⟨32, _⟩ => ⟨S1x16, .f32⟩
  | .hbm, ⟨33, _⟩ => ⟨S131072x16, .f32⟩
  | .hbm, ⟨34, _⟩ => ⟨S131072x16, .f32⟩
  | .hbm, ⟨35, _⟩ => ⟨S_, .f32⟩
  | .hbm, ⟨36, _⟩ => ⟨S131072, .f32⟩
  | .hbm, ⟨37, _⟩ => ⟨S131072x1, .f32⟩
  | .hbm, ⟨38, _⟩ => ⟨S131072x16, .f32⟩
  | .hbm, ⟨39, _⟩ => ⟨S131072x16, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  bcast_S_S512 : S_.BroadcastsInDim S512 (![] : Fin 0 → Fin S512.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  reducesTo_S131072x16_S131072_d1 : S131072x16.ReducesTo [1] S131072
  bcast_S131072x1_S131072x16_0_1 : S131072x1.BroadcastsInDim S131072x16 (![0, 1] : Fin 2 → Fin S131072x16.rank)
  dot_S131072x64_S64x512_S131072x512_1_0_0_1_n_n_wf : DotDims.WF S131072x64 S64x512 S131072x512 [1] [0] [0] [1] [] []
  dot_S131072x512_S512x16_S131072x16_1_0_0_1_n_n_wf : DotDims.WF S131072x512 S512x16 S131072x16 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x16_S131072x16_1_0_0_1_n_n : DotDims S131072x512 S512x16 S131072x16 where
  lhsContracting := [1]
  rhsContracting := [0]
  lhsNonContracting := [0]
  rhsNonContracting := [1]
  lhsBatch := []
  rhsBatch := []
  wf := dot_S131072x512_S512x16_S131072x16_1_0_0_1_n_n_wf

class Facts : Prop extends Facts₀ where

variable [Facts]
-- ==== Proof.RbfSpec.lean ====
/-
  A radial-basis-function network, row by row, as one function of its five arrays.

  For a sample row `u` (64 features), centres `cen h` (512 of them) with squared norms `cn h`, widths `sg h`,
  output weights `w h o` and biases `b o` (16 outputs):
    * the squared distance to centre `h` is expanded, `‖u‖² + ‖cen h‖² − 2·⟨u, cen h⟩`;
    * the hidden activation is `exp (−dist² / (2·sg h·sg h))`;
    * the linear layer is `∑ h, act h · w h o + b o`;
    * the result is that vector divided by the sum of its 16 entries.
  Everything is on the extended reals with the exact operations, in this grouping and order; the number two is
  kept as the word both programs carry. The centres' squared norms are a parameter of the row function, so that
  it describes equally a program that recomputes them and one that is handed them.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The number two, as the f32 word `0x40000000`. -/
abbrev two : EReal := Ideal.ofBits .f32 0x40000000#32

/-- `‖v‖²` of a vector of 64 entries. -/
def sqNorm (v : Fin 64 → EReal) : EReal := ∑ k : Fin 64, v k * v k

/-- `⟨u, v⟩` of two vectors of 64 entries. -/
def dotp (u v : Fin 64 → EReal) : EReal := ∑ k : Fin 64, u k * v k

/-- The Gaussian activation of hidden unit `h` on the row `u`: `exp (−(‖u‖² + cn h − 2⟨u, cen h⟩) / (2·sg h·sg h))`. -/
def act (u : Fin 64 → EReal) (cen : Fin 512 → Fin 64 → EReal) (cn sg : Fin 512 → EReal) (h : Fin 512) : EReal :=
  Ideal.exp (Ideal.div (-(sqNorm u + cn h - two * dotp u (cen h))) (two * sg h * sg h))

/-- The linear layer on a row of activations: `∑ h, hid h · w h o + b o`. -/
def lin (hid : Fin 512 → EReal) (w : Fin 512 → Fin 16 → EReal) (b : Fin 16 → EReal) (o : Fin 16) : EReal :=
  (∑ h : Fin 512, hid h * w h o) + b o

/-- A vector of 16 entries divided by the sum of its entries. -/
def normalized (y : Fin 16 → EReal) (o : Fin 16) : EReal := Ideal.div (y o) (∑ o' : Fin 16, y o')

/-- One row of the network's output. -/
def rowOut (u : Fin 64 → EReal) (cen : Fin 512 → Fin 64 → EReal) (cn sg : Fin 512 → EReal)
    (w : Fin 512 → Fin 16 → EReal) (b : Fin 16 → EReal) (o : Fin 16) : EReal :=
  normalized (lin (act u cen cn sg) w b) o

/-- The network on the whole batch: row `p` of the result is `rowOut` of row `p` of `x`, the centres' squared norms
    being those of the rows of `c`. -/
def rbf (x : FVec Ideal ⟨2, ![131072, 64]⟩ .f32) (c : FVec Ideal ⟨2, ![512, 64]⟩ .f32) (s : FVec Ideal ⟨1, ![512]⟩ .f32)
    (w : FVec Ideal ⟨2, ![512, 16]⟩ .f32) (b : FVec Ideal ⟨1, ![16]⟩ .f32) : FVec Ideal ⟨2, ![131072, 16]⟩ .f32 :=
  fun j => rowOut (fun k => x (ix2 (j 0) k)) (fun h k => c (ix2 h k)) (fun h => sqNorm fun k => c (ix2 h k))
    (fun h => s (ix1 h)) (fun h o => w (ix2 h o)) (fun o => b (ix1 o)) (j 1)

theorem rbf_apply (x : FVec Ideal ⟨2, ![131072, 64]⟩ .f32) (c : FVec Ideal ⟨2, ![512, 64]⟩ .f32) (s : FVec Ideal ⟨1, ![512]⟩ .f32)
    (w : FVec Ideal ⟨2, ![512, 16]⟩ .f32) (b : FVec Ideal ⟨1, ![16]⟩ .f32) (p : Fin 131072) (o : Fin 16) :
    rbf x c s w b (ix2 p o)
      = rowOut (fun k => x (ix2 p k)) (fun h k => c (ix2 h k)) (fun h => sqNorm fun k => c (ix2 h k))
          (fun h => s (ix1 h)) (fun h o => w (ix2 h o)) (fun o => b (ix1 o)) o := rfl

/-- Subtracting from the zero word is negation: on the extended reals `0 − a = −a`. -/
theorem zero_word_sub (a : EReal) : Ideal.ofBits .f32 0x00000000#32 - a = -a := by
  rw [Ideal.ofBits_zero_f32, zero_sub]

end Cert.Rbf

end
-- ==== Proof.RbfReference.lean ====
/-
  The reference program computes the network of RbfSpec.lean.

  Its result is read one operation at a time, at an index, and each group of operations is identified with a
  piece of the row function: the two sums of squares, the matrix product with the transposed centres as inner
  products of rows, the Gaussian activation, the linear layer, and the division by the row sum. The zero each
  host sum starts from is dropped (`0 + a = a`); nothing else is rearranged.
-/
import proofs.«175615_j58171037057369_1_alg».proof.Proof.Gen.ReferenceIdeal.Read
import proofs.«175615_j58171037057369_1_alg».proof.Proof.RbfSpec
import Idealize.ShloMosaic.PureOps.Ideal.Laws

noncomputable section

namespace Cert.Rbf.Reference

open Cert.ReferenceIdeal Cert.ReferenceIdeal.Read Idealize.ShloMosaic Idealize.ShloMosaic.ValueIdx Cert.Rbf

/-- Two indices built coordinate by coordinate from the same numbers are equal. -/
local macro "idx_rfl" : tactic =>
  `(tactic| (funext a; apply Fin.ext; first
      | (match a with | ⟨0, _⟩ => rfl | ⟨1, _⟩ => rfl)
      | (match a with | ⟨0, _⟩ => rfl)))

variable (x : (⟨S131072x64, .f32⟩ : BufTy).Contents (Elt Ideal)) (c : (⟨S512x64, .f32⟩ : BufTy).Contents (Elt Ideal))
  (s : (⟨S512, .f32⟩ : BufTy).Contents (Elt Ideal)) (w : (⟨S512x16, .f32⟩ : BufTy).Contents (Elt Ideal))
  (b : (⟨S16, .f32⟩ : BufTy).Contents (Elt Ideal))

/-- The host's sum of squares along a sample's features is `‖x_p‖²`. -/
theorem sqnorm_x (p : Fin 131072) : val_main_v1 (F := Ideal) x (ix1 p) = sqNorm fun k => x (ix2 p k) := by
  unfold sqNorm
  rw [val_main_v1_apply, val_main_cst_apply, Ideal.ofBits_def, Ideal.ofBits_zero_f32, zero_add]
  refine Finset.sum_congr rfl fun k _ => ?_
  rw [val_main_v0_apply, Ideal.mulf_def, show idx_main_v1 (ix1 p) k = ix2 p k by idx_rfl]

/-- The host's sum of squares along a centre's features is `‖c_h‖²`. -/
theorem sqnorm_c (h : Fin 512) : val_main_v4 (F := Ideal) c (ix1 h) = sqNorm fun k => c (ix2 h k) := by
  unfold sqNorm
  rw [val_main_v4_apply, val_main_cst_0_apply, Ideal.ofBits_def, Ideal.ofBits_zero_f32, zero_add]
  refine Finset.sum_congr rfl fun k _ => ?_
  rw [val_main_v3_apply, Ideal.mulf_def, show idx_main_v4 (ix1 h) k = ix2 h k by idx_rfl]

/-- The product of the samples with the transposed centres, at `(p, h)`, is `⟨x_p, c_h⟩`. -/
theorem dot_xc (p : Fin 131072) (h : Fin 512) :
    val_main_v10 (F := Ideal) x c (ix2 p h) = dotp (fun k => x (ix2 p k)) (fun k => c (ix2 h k)) := by
  unfold dotp
  rw [val_main_v10_apply]
  refine Finset.sum_congr rfl fun k _ => ?_
  rw [val_main_v9_apply, show lidx_main_v10 (ix2 p h) k = ix2 p k by idx_rfl,
    show idx_main_v9 (ridx_main_v10 (ix2 p h) k) = ix2 h k by idx_rfl]

/-- The exponential of the negated, scaled squared distance, at `(p, h)`, is the activation of unit `h` on sample `p`. -/
theorem act_eq (p : Fin 131072) (h : Fin 512) :
    val_main_v21 (F := Ideal) x c s (ix2 p h)
      = act (fun k => x (ix2 p k)) (fun h k => c (ix2 h k)) (fun h => sqNorm fun k => c (ix2 h k)) (fun h => s (ix1 h)) h := by
  unfold act
  rw [val_main_v21_apply, val_main_v20_apply, val_main_v14_apply, val_main_v13_apply, val_main_v8_apply, val_main_v12_apply,
    val_main_v6_apply, val_main_v2_apply, val_main_v7_apply, val_main_v5_apply, val_main_v11_apply, val_main_cst_1_apply,
    val_main_v19_apply, val_main_v18_apply, val_main_v17_apply, val_main_v16_apply, val_main_v15_apply, val_main_cst_2_apply,
    show idx_main_v2 (idx_main_v6 (ix2 p h)) = ix1 p by idx_rfl,
    show idx_main_v5 (idx_main_v7 (ix2 p h)) = ix1 h by idx_rfl,
    show idx_main_v18 (idx_main_v19 (ix2 p h)) = ix1 h by idx_rfl,
    sqnorm_x, sqnorm_c, dot_xc]
  simp only [Ideal.hostUnary_exp_def, Ideal.hostDivf_def, Ideal.hostNegf_def, Ideal.negf_def, Ideal.subf_def, Ideal.addf_def,
    Ideal.mulf_def, Ideal.ofBits_def]

/-- The second matrix product plus the bias, at `(p, o)`, is the linear layer on sample `p`'s activations. -/
theorem lin_eq (p : Fin 131072) (o : Fin 16) :
    val_main_v25 (F := Ideal) x c s w b (ix2 p o)
      = lin (act (fun k => x (ix2 p k)) (fun h k => c (ix2 h k)) (fun h => sqNorm fun k => c (ix2 h k)) (fun h => s (ix1 h)))
          (fun h o => w (ix2 h o)) (fun o => b (ix1 o)) o := by
  unfold lin
  rw [val_main_v25_apply, val_main_v22_apply, val_main_v24_apply, val_main_v23_apply, Ideal.addf_def,
    show idx_main_v23 (idx_main_v24 (ix2 p o)) = ix1 o by idx_rfl]
  refine congrArg (· + _) (Finset.sum_congr rfl fun h _ => ?_)
  rw [show lidx_main_v22 (ix2 p o) h = ix2 p h by idx_rfl, show ridx_main_v22 (ix2 p o) h = ix2 h o by idx_rfl, act_eq]

/-- The reference's result is the network of the specification. -/
theorem reference_eq : val_main_v29 (F := Ideal) x c s w b = rbf x c s w b := by
  funext j
  obtain ⟨p, o, rfl⟩ : ∃ (p : Fin 131072) (o : Fin 16), j = ix2 p o := ⟨j 0, j 1, eq_ix2 j⟩
  rw [rbf_apply]
  unfold rowOut normalized
  rw [val_main_v29_apply, val_main_v28_apply, val_main_v27_apply, val_main_v26_apply, val_main_cst_3_apply, Ideal.hostDivf_def,
    Ideal.ofBits_def, Ideal.ofBits_zero_f32, zero_add,
    show idx_main_v27 (idx_main_v28 (ix2 p o)) = ix1 p by idx_rfl, lin_eq]
  refine congrArg (Ideal.div _) (Finset.sum_congr rfl fun o' _ => ?_)
  rw [show idx_main_v26 (ix1 p) o' = ix2 p o' by idx_rfl, lin_eq]

end Cert.Rbf.Reference

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.RbfKernelBlock.lean ====
/-
  What the kernel's body computes on one block of 2048 samples.

  The body is one pure term of the six blocks it loads: the samples' block, the centres, the centres' squared
  norms as a row, the widths as a row, the weights, and the biases as a row. Read at `(r, o)` it is the row
  function of RbfSpec.lean on row `r` of the samples' block. The operations that are not pointwise are read
  one by one: a lane sum kept as a column and spread over the columns is the row's sum at every column; a row
  spread over the rows is that row; a matrix product into a zero accumulator is the sum over the shared
  coordinate, and the transposed centres enter it as rows of the centres; the narrowing to bf16 is the identity
  on extended reals. Subtracting from zero is negation.
-/
import proofs.«175615_j58171037057369_1_alg».proof.Proof.Gen.KernelIdeal.Skeleton
import proofs.«175615_j58171037057369_1_alg».proof.Proof.RbfSpec
import proofs.«175615_j58171037057369_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Kernel

open Cert.KernelIdeal Cert.KernelIdeal.Gen Idealize.ShloMosaic Idealize.ShloMosaic.ValueIdx Cert.Rbf Cert.LibLayout

/-- Two indices built coordinate by coordinate from the same numbers are equal. -/
local macro "idx_rfl" : tactic =>
  `(tactic| (funext a; apply Fin.ext; first
      | (match a with | ⟨0, _⟩ => rfl | ⟨1, _⟩ => rfl)
      | (match a with | ⟨0, _⟩ => rfl)))

/-- The vector exponential at an index. -/
theorem exp_apply {s : Shape} {φ : FTy} (v : FVec Ideal s φ) (i : s.Idx) : exp v i = Ideal.exp (v i) := rfl

/-- A lane sum over the second axis of a `[2048, D]` block, from the zero word, at row `r`: the sum of the row. -/
theorem lane_sum_apply {D : ℕ} (v : FVec Ideal ⟨2, ![2048, D]⟩ .f32)
    (hr : (⟨2, ![2048, D]⟩ : Shape).Reduces [1] ⟨1, ![2048]⟩) (hφ : FTy.f32 = FTy.f32 ∨ FTy.f32 = FTy.bf16)
    (hacc : (0x00000000#32 : BitVec 32) = 0x00000000#32) (r : Fin 2048) :
    multiReduction .add [1] ⟨1, ![2048]⟩ v 0x00000000#32 hr hφ hacc (ix1 r) = ∑ k : Fin D, v (ix2 r k) := by
  refine (Ideal.multiReduction_add_single v 0x00000000#32 hr hφ hacc (ix1 r)).trans ?_
  refine Finset.sum_congr rfl fun k _ => ?_
  exact congrArg v (by idx_rfl)

/-! ### The product of the samples' block with the transposed centres -/

theorem xc_lhs_0 (i : S2048x512.Idx) (q : dot_S2048x64_S64x512_S2048x512_1_0_0_1_n_n.contr.Idx) :
    (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem xc_lhs_1 (i : S2048x512.Idx) (q : dot_S2048x64_S64x512_S2048x512_1_0_0_1_n_n.contr.Idx) :
    (dot_S2048x64_S64x512_S2048x512_1_0_0_1_n_n.lhsIdx i q 1).val = (q ⟨0, by decide⟩).val :=
  dot_S2048x64_S64x512_S2048x512_1_0_0_1_n_n.lhsIdx_val_of_single rfl i q
theorem xc_rhs_0 (i : S2048x512.Idx) (q : dot_S2048x64_S64x512_S2048x512_1_0_0_1_n_n.contr.Idx) :
    (dot_S2048x64_S64x512_S2048x512_1_0_0_1_n_n.rhsIdx i q 0).val = (q ⟨0, by decide⟩).val :=
  dot_S2048x64_S64x512_S2048x512_1_0_0_1_n_n.rhsIdx_val_of_single rfl i q
theorem xc_rhs_1 (i : S2048x512.Idx) (q : dot_S2048x64_S64x512_S2048x512_1_0_0_1_n_n.contr.Idx) :
    (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

/-- A `[2048, 64]` by `[64, 512]` product into the zero accumulator, at `(r, h)`: the sum over the 64 shared coordinates. -/
theorem xc_matmul_apply {φ₁ φ₂ : FTy} (A : FVec Ideal S2048x64 φ₁) (Bm : FVec Ideal S64x512 φ₂) (r : Fin 2048) (h : Fin 512) :
    matmul dot_S2048x64_S64x512_S2048x512_1_0_0_1_n_n none A Bm (constant S2048x512 .f32 0x00000000#32) (ix2 r h)
      = ∑ k : Fin 64, A (ix2 r k) * Bm (ix2 k h) := by
  refine (Ideal.matmul_constant_zero_apply dot_S2048x64_S64x512_S2048x512_1_0_0_1_n_n none A Bm (ix2 r h)).trans ?_
  rw [← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have el : dot_S2048x64_S64x512_S2048x512_1_0_0_1_n_n.lhsIdx (ix2 r h) ((contrEquiv1 dot_S2048x64_S64x512_S2048x512_1_0_0_1_n_n 64 rfl rfl).symm k) = ix2 r k := funext fun a => Fin.ext (by
    match a with
    | ⟨0, _⟩ => exact xc_lhs_0 _ _
    | ⟨1, _⟩ => exact (xc_lhs_1 _ _).trans hk)
  have er : dot_S2048x64_S64x512_S2048x512_1_0_0_1_n_n.rhsIdx (ix2 r h) ((contrEquiv1 dot_S2048x64_S64x512_S2048x512_1_0_0_1_n_n 64 rfl rfl).symm k) = ix2 k h := funext fun a => Fin.ext (by
    match a with
    | ⟨0, _⟩ => exact (xc_rhs_0 _ _).trans hk
    | ⟨1, _⟩ => exact xc_rhs_1 _ _)
  rw [el, er]

/-! ### The product of the activations with the weights -/

theorem hw_lhs_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem hw_lhs_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem hw_rhs_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
theorem hw_rhs_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl

/-- A `[2048, 512]` by `[512, 16]` product into the zero accumulator, at `(r, o)`: the sum over the 512 shared coordinates. -/
theorem hw_matmul_apply {φ₁ φ₂ : FTy} (A : FVec Ideal S2048x512 φ₁) (W : FVec Ideal S512x16 φ₂) (r : Fin 2048) (o : Fin 16) :
    matmul dot_S2048x512_S512x16_S2048x16_1_0_0_1_n_n none A W (constant S2048x16 .f32 0x00000000#32) (ix2 r o)
      = ∑ h : Fin 512, A (ix2 r h) * W (ix2 h o) := by
  refine (Ideal.matmul_constant_zero_apply dot_S2048x512_S512x16_S2048x16_1_0_0_1_n_n none A W (ix2 r o)).trans ?_
  rw [← Equiv.sum_comp (contrEquiv1 dot_S2048x512_S512x16_S2048x16_1_0_0_1_n_n 512 rfl rfl).symm]
  refine Finset.sum_congr rfl fun h _ => ?_
  have hk := contrEquiv1_symm_val dot_S2048x512_S512x16_S2048x16_1_0_0_1_n_n 512 rfl rfl h
  have el : dot_S2048x512_S512x16_S2048x16_1_0_0_1_n_n.lhsIdx (ix2 r o) ((contrEquiv1 dot_S2048x512_S512x16_S2048x16_1_0_0_1_n_n 512 rfl rfl).symm h) = ix2 r h := funext fun a => Fin.ext (by
    match a with
    | ⟨0, _⟩ => exact hw_lhs_0 _ _
    | ⟨1, _⟩ => exact (hw_lhs_1 _ _).trans hk)
  have er : dot_S2048x512_S512x16_S2048x16_1_0_0_1_n_n.rhsIdx (ix2 r o) ((contrEquiv1 dot_S2048x512_S512x16_S2048x16_1_0_0_1_n_n 512 rfl rfl).symm h) = ix2 h o := funext fun a => Fin.ext (by
    match a with
    | ⟨0, _⟩ => exact (hw_rhs_0 _ _).trans hk
    | ⟨1, _⟩ => exact hw_rhs_1 _ _)
  rw [el, er]

/-! ### The body at an index -/

/-- The index `(h, k)` of the centres that entry `(k, h)` of their transpose reads. -/
def swapIdx (j : S64x512.Idx) : S512x64.Idx := ix2 (j 1) (j 0)

theorem swapIdx_ix2 (k : Fin 64) (h : Fin 512) : swapIdx (ix2 k h) = ix2 h k := rfl

/-- The body's result at `(r, o)` is the row function on row `r` of the samples' block, the centres' squared norms
    and the widths and biases read off the one row of their blocks. -/
theorem payload_apply (x0 : Vec Ideal S2048x64 .f32) (c : Vec Ideal S512x64 .f32) (cn : Vec Ideal S1x512 .f32)
    (sg : Vec Ideal S1x512 .f32) (w : Vec Ideal S512x16 .f32) (b : Vec Ideal S1x16 .f32) (r : Fin 2048) (o : Fin 16) :
    k0_pay1 (F := Ideal) x0 c cn sg w b (ix2 r o)
      = rowOut (fun k => x0 (ix2 r k)) (fun h k => c (ix2 h k)) (fun h => cn (ix2 (0 : Fin 1) h))
          (fun h => sg (ix2 (0 : Fin 1) h)) (fun h o => w (ix2 h o)) (fun o => b (ix2 (0 : Fin 1) o)) o := by
  -- the transposed centres, as a function of the index: entry (k, h) is the centres' entry (h, k)
  have hT : (transpose S64x512 [1, 0] (truncf (F := Ideal) .bf16 (c : FVec Ideal S512x64 .f32) bitsLt_bf16_f32)
        transposes_S512x64_p1_0_S64x512 : S64x512.Idx → EReal)
      = fun j : S64x512.Idx => (c (swapIdx j) : EReal) := by
    funext j
    obtain ⟨k, h, rfl⟩ : ∃ (k : Fin 64) (h : Fin 512), j = ix2 k h := ⟨j 0, j 1, eq_ix2 j⟩
    rw [swapIdx_ix2]
    exact transpose_ix2_apply _ _ k h
  unfold k0_pay1 rowOut normalized lin act sqNorm dotp
  simp only [divf_apply, addf_apply, subf_apply, mulf_apply, exp_apply, broadcast_apply, truncf_apply,
    broadcastTo_1b_ab_apply, broadcastTo_a1_ab_apply, shapeCast_a_a1_apply, shapeCast_self,
    xc_matmul_apply, hw_matmul_apply, Ideal.ofBits_def, zero_word_sub]
  -- the two lane sums: the squared norm of row r, and the sum of row r of the linear layer's output
  rw [hT, lane_sum_apply, lane_sum_apply]
  simp only [divf_apply, addf_apply, subf_apply, mulf_apply, exp_apply, broadcast_apply, truncf_apply,
    broadcastTo_1b_ab_apply, broadcastTo_a1_ab_apply, shapeCast_a_a1_apply, shapeCast_self,
    xc_matmul_apply, hw_matmul_apply, Ideal.ofBits_def, zero_word_sub, swapIdx_ix2]
  -- the squared norm of row r again, inside the row sum
  rw [lane_sum_apply]
  simp only [mulf_apply, two]

end Cert.Rbf.Kernel

end
-- ==== Proof.RbfKernelHost.lean ====
/-
  The three arrays the kernel's program prepares on the host before the launch.

  The centres' squared norms are summed along each centre's features, kept as a column `[512, 1]` and recast to
  one row `[1, 512]`; the widths and the biases are recast from a vector to one row. Read at `(0, h)`, the first
  is `‖c_h‖²` and the other two are the vector's entry `h`. The host sum starts from the zero word, which is
  dropped (`0 + a = a`).
-/
import proofs.«175615_j58171037057369_1_alg».proof.Proof.Gen.KernelIdeal.Frame
import proofs.«175615_j58171037057369_1_alg».proof.Proof.RbfSpec
import proofs.«175615_j58171037057369_1_alg».proof.Proof.LibLayout
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.KernelHost

open Cert.KernelIdeal Cert.KernelIdeal.Gen Idealize.ShloMosaic Idealize.ShloMosaic.TcCoe Idealize.SL.Sem
  Idealize.ShloMosaic.StableHlo Idealize.ShloMosaic.ValueIdx Cert.Rbf Cert.LibLayout

/-- Two indices built coordinate by coordinate from the same numbers are equal. -/
local macro "idx_rfl" : tactic =>
  `(tactic| (funext a; apply Fin.ext; first
      | (match a with | ⟨0, _⟩ => rfl | ⟨1, _⟩ => rfl)
      | (match a with | ⟨0, _⟩ => rfl)))

/-- A column `[a, 1]` recast to one row `[1, a]` reads, at `(u, i)`, the column's entry `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The host's sums of squares along the centres' features, as a column recast to one row: at `(0, h)` it is `‖c_h‖²`. -/
theorem csq_apply (A : FVec Ideal S512x64 .f32) (h : Fin 512) :
    shapeCast S1x512 (broadcastInDim S512x1 ![0] bcast_S512_S512x1_0
        (Host.reduceAdd (F := Ideal) (mulf A A) (constant (F := Ideal) S_ .f32 0x00000000#32) reducesTo_S512x64_S512_d1 h_S_))
      shapeCasts_S512x1_S1x512 (ix2 (0 : Fin 1) h) = sqNorm fun k => A (ix2 h k) := by
  rw [shapeCast_a1_1a_apply, broadcastInDim_a_a1_apply]
  unfold sqNorm
  simp only [Host.reduceAdd, Ideal.hostReduceAdd_def]
  rw [Ideal.hostReduceAdd_single reducesTo_S512x64_S512_d1 (by decide)]
  refine (congrArg (· + _) (Ideal.ofBits_zero_f32)).trans ((zero_add _).trans ?_)
  refine Finset.sum_congr rfl fun k _ => ?_
  exact congrArg (fun i => A i * A i) (by idx_rfl)

variable (m : (ℓ : Loc nD τ sig) → Buf (Elt Ideal) ℓ)

/-- The array of window 2 as the launch finds it: the centres' squared norms, one row. -/
theorem V_csq (c : Dev nD) : (V m c main_v3 : S1x512.Idx → EReal)
    = shapeCast S1x512 (broadcastInDim S512x1 ![0] bcast_S512_S512x1_0
        (Host.reduceAdd (F := Ideal) (mulf (m ((c : Thread nD τ).loc main_arg1)) (m ((c : Thread nD τ).loc main_arg1)))
          (constant (F := Ideal) S_ .f32 0x00000000#32) reducesTo_S512x64_S512_d1 h_S_))
      shapeCasts_S512x1_S1x512 := by
  dsimp only [Gen.V, Gen.hostOps0]; after_results; rfl

/-- The array of window 3 as the launch finds it: the widths, one row. -/
theorem V_sigma (c : Dev nD) : (V m c main_v4 : S1x512.Idx → EReal)
    = shapeCast S1x512 (m ((c : Thread nD τ).loc main_arg2)) shapeCasts_S512_S1x512 := by
  dsimp only [Gen.V, Gen.hostOps0]; after_results; rfl

/-- The array of window 5 as the launch finds it: the biases, one row. -/
theorem V_bias (c : Dev nD) : (V m c main_v5 : S1x16.Idx → EReal)
    = shapeCast S1x16 (m ((c : Thread nD τ).loc main_arg4)) shapeCasts_S16_S1x16 := by
  dsimp only [Gen.V, Gen.hostOps0]; after_results; rfl

/-- Window 2's array at `(0, h)` is `‖c_h‖²` of the centres as launched. -/
theorem V_csq_apply (c : Dev nD) (h : Fin 512) :
    (V m c main_v3 : S1x512.Idx → EReal) (ix2 (0 : Fin 1) h)
      = sqNorm fun k => (m ((c : Thread nD τ).loc main_arg1) : S512x64.Idx → EReal) (ix2 h k) := by
  rw [V_csq]; exact csq_apply _ h

/-- Window 3's array at `(0, h)` is the width of unit `h` as launched. -/
theorem V_sigma_apply (c : Dev nD) (h : Fin 512) :
    (V m c main_v4 : S1x512.Idx → EReal) (ix2 (0 : Fin 1) h) = (m ((c : Thread nD τ).loc main_arg2) : S512.Idx → EReal) (ix1 h) := by
  rw [V_sigma]; exact shapeCast_a_1a_apply _ _ 0 h

/-- Window 5's array at `(0, o)` is the bias of output `o` as launched. -/
theorem V_bias_apply (c : Dev nD) (o : Fin 16) :
    (V m c main_v5 : S1x16.Idx → EReal) (ix2 (0 : Fin 1) o) = (m ((c : Thread nD τ).loc main_arg4) : S16.Idx → EReal) (ix1 o) := by
  rw [V_bias]; exact shapeCast_a_1a_apply _ _ 0 o

end Cert.Rbf.KernelHost

end
-- ==== Proof.RbfKernelArray.lean ====
/-
  From blocks to the array: what the kernel's program leaves in its result.

  Grid point `t` (of 64) takes rows `2048·t … 2048·t + 2047` of the samples and writes the same rows of the
  result; the other five operands are whole arrays at every point. So what point `t` writes back is the network
  of RbfSpec.lean restricted to those rows: row `r` of the block is row `2048·t + r` of the batch, and a row of
  the network depends on no other row of the samples. The 64 blocks cover the result (row `p` lies in the block
  of point `p / 2048`), hence the whole result array is the network of the five arrays as launched.
-/
import proofs.«175615_j58171037057369_1_alg».proof.Proof.Gen.KernelIdeal.Value
import proofs.«175615_j58171037057369_1_alg».proof.Proof.RbfSpec
import proofs.«175615_j58171037057369_1_alg».proof.Proof.RbfKernelBlock
import proofs.«175615_j58171037057369_1_alg».proof.Proof.RbfKernelHost
import Idealize.ShloMosaic.Lib.Pipeline.Value
import Idealize.ShloMosaic.Lib.ValueIdx

noncomputable section

namespace Cert.Rbf.KernelArray

open Cert.KernelIdeal Cert.KernelIdeal.Gen Idealize.ShloMosaic Idealize.ShloMosaic.TcCoe Idealize.SL.Sem
  Idealize.ShloMosaic.ValueIdx Cert.Rbf
open Idealize.ShloMosaic.Pipeline (Dat)

/-! ### One row of one block -/

/-- If row `r` of the samples' block is row `p` of the batch, the centres', weights' blocks are the arrays, and the
    three one-row blocks hold the centres' squared norms, the widths and the biases, then the body's result at
    `(r, o)` is the network at `(p, o)`. -/
theorem block_value (x0 : Vec Ideal S2048x64 .f32) (cb : Vec Ideal S512x64 .f32) (cnb sgb : Vec Ideal S1x512 .f32)
    (wb : Vec Ideal S512x16 .f32) (bb : Vec Ideal S1x16 .f32)
    (x : FVec Ideal ⟨2, ![131072, 64]⟩ .f32) (cc : FVec Ideal ⟨2, ![512, 64]⟩ .f32) (s : FVec Ideal ⟨1, ![512]⟩ .f32)
    (w : FVec Ideal ⟨2, ![512, 16]⟩ .f32) (b : FVec Ideal ⟨1, ![16]⟩ .f32)
    (r : Fin 2048) (o : Fin 16) (p : Fin 131072)
    (hx : ∀ k : Fin 64, x0 (ix2 r k) = x (ix2 p k))
    (hc : ∀ (h : Fin 512) (k : Fin 64), cb (ix2 h k) = cc (ix2 h k))
    (hcn : ∀ h : Fin 512, cnb (ix2 (0 : Fin 1) h) = sqNorm fun k => cc (ix2 h k))
    (hs : ∀ h : Fin 512, sgb (ix2 (0 : Fin 1) h) = s (ix1 h))
    (hw : ∀ (h : Fin 512) (o : Fin 16), wb (ix2 h o) = w (ix2 h o))
    (hb : ∀ o : Fin 16, bb (ix2 (0 : Fin 1) o) = b (ix1 o)) :
    k0_pay1 (F := Ideal) x0 cb cnb sgb wb bb (ix2 r o) = rbf x cc s w b (ix2 p o) := by
  rw [Kernel.payload_apply, rbf_apply,
    show (fun k => x0 (ix2 r k)) = fun k => x (ix2 p k) from funext hx,
    show (fun h k => cb (ix2 h k)) = fun h k => cc (ix2 h k) from funext fun h => funext (hc h),
    show (fun h => cnb (ix2 (0 : Fin 1) h)) = fun h => sqNorm fun k => cc (ix2 h k) from funext hcn,
    show (fun h => sgb (ix2 (0 : Fin 1) h)) = fun h => s (ix1 h) from funext hs,
    show (fun h o => wb (ix2 h o)) = fun h o => w (ix2 h o) from funext fun h => funext (hw h),
    show (fun o => bb (ix2 (0 : Fin 1) o)) = fun o => b (ix1 o) from funext hb]

/-- The same, the result's index given by its two coordinates. -/
theorem block_value_at (x0 : Vec Ideal S2048x64 .f32) (cb : Vec Ideal S512x64 .f32) (cnb sgb : Vec Ideal S1x512 .f32)
    (wb : Vec Ideal S512x16 .f32) (bb : Vec Ideal S1x16 .f32)
    (x : FVec Ideal ⟨2, ![131072, 64]⟩ .f32) (cc : FVec Ideal ⟨2, ![512, 64]⟩ .f32) (s : FVec Ideal ⟨1, ![512]⟩ .f32)
    (w : FVec Ideal ⟨2, ![512, 16]⟩ .f32) (b : FVec Ideal ⟨1, ![16]⟩ .f32)
    (r : Fin 2048) (o : Fin 16) (p : Fin 131072) (i : (⟨2, ![131072, 16]⟩ : Shape).Idx)
    (hi0 : (i 0).val = p.val) (hi1 : (i 1).val = o.val)
    (hx : ∀ k : Fin 64, x0 (ix2 r k) = x (ix2 p k))
    (hc : ∀ (h : Fin 512) (k : Fin 64), cb (ix2 h k) = cc (ix2 h k))
    (hcn : ∀ h : Fin 512, cnb (ix2 (0 : Fin 1) h) = sqNorm fun k => cc (ix2 h k))
    (hs : ∀ h : Fin 512, sgb (ix2 (0 : Fin 1) h) = s (ix1 h))
    (hw : ∀ (h : Fin 512) (o : Fin 16), wb (ix2 h o) = w (ix2 h o))
    (hb : ∀ o : Fin 16, bb (ix2 (0 : Fin 1) o) = b (ix1 o)) :
    k0_pay1 (F := Ideal) x0 cb cnb sgb wb bb (ix2 r o) = rbf x cc s w b i := by
  have hi : i = ix2 p o := funext fun a => Fin.ext (by
    match a with
    | ⟨0, _⟩ => exact hi0
    | ⟨1, _⟩ => exact hi1)
  rw [hi]
  exact block_value x0 cb cnb sgb wb bb x cc s w b r o p hx hc hcn hs hw hb

/-! ### The grid -/

variable (m : (ℓ : Loc nD τ sig) → Buf (Elt Ideal) ℓ) (ρ : Dev nD → PrngReg)

theorem hz : (![0, 0] : Fin 2 → Nat) = fun _ => 0 := funext fun a => by fin_cases a <;> rfl

/-- The network of the five arrays as launched on core `c`. -/
abbrev result (c : Dev nD) : Buf (Elt Ideal) ((c : Thread nD τ).loc main_v6) :=
  rbf (m ((c : Thread nD τ).loc main_arg0)) (m ((c : Thread nD τ).loc main_arg1)) (m ((c : Thread nD τ).loc main_arg2)) (m ((c : Thread nD τ).loc main_arg3)) (m ((c : Thread nD τ).loc main_arg4))

/-- The printed index maps, decided over the 64 points: the samples' and the result's block index is the point's
    number on the row axis, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the network of the arrays as launched. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S2048x64) hz, View.ld_unit_zero (S := S512x64) hz, View.ld_unit_zero (S := S1x512) hz,
    View.ld_unit_zero (S := S512x16) hz, View.ld_unit_zero (S := S1x16) hz]
  obtain ⟨e00, e01, e10, e11, e20, e21, e30, e31, e40, e41, e50, e51, e60, e61⟩ := idx_facts t
  have ht : t.val < 64 := lt_of_lt_of_eq t.isLt N_0
  funext y
  obtain ⟨r, o, rfl⟩ : ∃ (r : Fin 2048) (o : Fin 16), y = ix2 r o := ⟨y 0, y 1, eq_ix2 y⟩
  have hr : r.val < 2048 := r.isLt
  show k0_pay1 (F := Ideal) (iblk m c 0 t) (iblk m c 1 t) (iblk m c 2 t) (iblk m c 3 t) (iblk m c 4 t) (iblk m c 5 t) (ix2 r o)
    = result m c (((cfg0.win 6).blk t).view.emb (ix2 r o))
  refine block_value_at (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4))
    r o ⟨t.val * 2048 + r.val, by omega⟩ (((cfg0.win 6).blk t).view.emb (ix2 r o)) ?_ ?_ ?_ ?_ ?_ ?_ ?_ ?_
  · show win0_6.index t (0 : Fin 2) * 2048 + 1 * r.val = t.val * 2048 + r.val
    omega
  · show win0_6.index t (1 : Fin 2) * 16 + 1 * o.val = o.val
    omega
  · -- the samples' block at point t: rows 2048·t … of the batch
    intro k
    show V m c main_arg0 (((cfg0.win 0).blk t).view.emb (ix2 r k)) = _
    rw [V_main_arg0]
    refine congrArg _ (funext fun a => Fin.ext ?_)
    match a with
    | ⟨0, _⟩ => show win0_0.index t (0 : Fin 2) * 2048 + 1 * r.val = t.val * 2048 + r.val; omega
    | ⟨1, _⟩ => show win0_0.index t (1 : Fin 2) * 64 + 1 * k.val = k.val; omega
  · -- the centres, whole
    intro h k
    show V m c main_arg1 (((cfg0.win 1).blk t).view.emb (ix2 h k)) = _
    rw [V_main_arg1]
    refine congrArg _ (funext fun a => Fin.ext ?_)
    match a with
    | ⟨0, _⟩ => show win0_1.index t (0 : Fin 2) * 512 + 1 * h.val = h.val; omega
    | ⟨1, _⟩ => show win0_1.index t (1 : Fin 2) * 64 + 1 * k.val = k.val; omega
  · -- the centres' squared norms, prepared on the host
    intro h
    show V m c main_v3 (((cfg0.win 2).blk t).view.emb (ix2 (0 : Fin 1) h)) = _
    rw [show ((cfg0.win 2).blk t).view.emb (ix2 (0 : Fin 1) h) = ix2 (0 : Fin 1) h from funext fun a => Fin.ext (by
      match a with
      | ⟨0, _⟩ => show win0_2.index t (0 : Fin 2) * 1 + 1 * 0 = 0; omega
      | ⟨1, _⟩ => show win0_2.index t (1 : Fin 2) * 512 + 1 * h.val = h.val; omega)]
    exact KernelHost.V_csq_apply m c h
  · -- the widths, as one row
    intro h
    show V m c main_v4 (((cfg0.win 3).blk t).view.emb (ix2 (0 : Fin 1) h)) = _
    rw [show ((cfg0.win 3).blk t).view.emb (ix2 (0 : Fin 1) h) = ix2 (0 : Fin 1) h from funext fun a => Fin.ext (by
      match a with
      | ⟨0, _⟩ => show win0_3.index t (0 : Fin 2) * 1 + 1 * 0 = 0; omega
      | ⟨1, _⟩ => show win0_3.index t (1 : Fin 2) * 512 + 1 * h.val = h.val; omega)]
    exact KernelHost.V_sigma_apply m c h
  · -- the weights, whole
    intro h q
    show V m c main_arg3 (((cfg0.win 4).blk t).view.emb (ix2 h q)) = _
    rw [V_main_arg3]
    refine congrArg _ (funext fun a => Fin.ext ?_)
    match a with
    | ⟨0, _⟩ => show win0_4.index t (0 : Fin 2) * 512 + 1 * h.val = h.val; omega
    | ⟨1, _⟩ => show win0_4.index t (1 : Fin 2) * 16 + 1 * q.val = q.val; omega
  · -- the biases, as one row
    intro q
    show V m c main_v5 (((cfg0.win 5).blk t).view.emb (ix2 (0 : Fin 1) q)) = _
    rw [show ((cfg0.win 5).blk t).view.emb (ix2 (0 : Fin 1) q) = ix2 (0 : Fin 1) q from funext fun a => Fin.ext (by
      match a with
      | ⟨0, _⟩ => show win0_5.index t (0 : Fin 2) * 1 + 1 * 0 = 0; omega
      | ⟨1, _⟩ => show win0_5.index t (1 : Fin 2) * 16 + 1 * q.val = q.val; omega)]
    exact KernelHost.V_bias_apply m c q

/-- An index of the result is in point `t`'s block iff each coordinate is in the block's range on its axis. -/
theorem mem_blk (t : Fin cfg0.N) (i : S131072x16.Idx) :
    i ∈ ((cfg0.win 6).blk t).view.set ↔ ∀ a : Fin 2, win0_6.index t a * S2048x16.size a ≤ (i a).val ∧ (i a).val < win0_6.index t a * S2048x16.size a + S2048x16.size a := by
  show i ∈ ((View.whole main_v6).slice (win0_6.rect t)).set ↔ _
  rw [View.set_slice_whole, Rect.mem_set_unit]
  exact Iff.rfl

/-- Every index of the result lies in some point's block: row `p` in the block of point `p / 2048`. -/
theorem cover (i : S131072x16.Idx) : ∃ t : Fin cfg0.N, (cfg0.win 6).flush t = true ∧ i ∈ ((cfg0.win 6).blk t).view.set := by
  have hi0 : (i 0).val < 131072 := (i 0).isLt
  have hi1 : (i 1).val < 16 := (i 1).isLt
  have hN : cfg0.N = 64 := N_0
  have hlt : (i 0).val / 2048 < cfg0.N := by rw [hN]; omega
  obtain ⟨-, -, -, -, -, -, -, -, -, -, -, -, e60, e61⟩ := idx_facts ⟨(i 0).val / 2048, hlt⟩
  refine ⟨⟨(i 0).val / 2048, hlt⟩, flush0_6 _, ?_⟩
  rw [mem_blk]
  intro a
  match a with
  | ⟨0, _⟩ =>
    show win0_6.index ⟨(i 0).val / 2048, hlt⟩ (0 : Fin 2) * 2048 ≤ (i 0).val
      ∧ (i 0).val < win0_6.index ⟨(i 0).val / 2048, hlt⟩ (0 : Fin 2) * 2048 + 2048
    rw [e60]
    show (i 0).val / 2048 * 2048 ≤ (i 0).val ∧ (i 0).val < (i 0).val / 2048 * 2048 + 2048
    omega
  | ⟨1, _⟩ =>
    show win0_6.index ⟨(i 0).val / 2048, hlt⟩ (1 : Fin 2) * 16 ≤ (i 1).val
      ∧ (i 1).val < win0_6.index ⟨(i 0).val / 2048, hlt⟩ (1 : Fin 2) * 16 + 16
    rw [e61]
    omega

/-- The result array after the run is the network of the arrays as launched. -/
theorem final (c : Dev nD) : (dats m 0 c).arrAt 6 cfg0.N = result m c :=
  (dats m 0 c).arrAt_eq_of_cover 6 (result m c) (fun t _ => flushed_eq m c t) cover

/-- The kernel's program runs, ends with its result at the network of its arguments, and leaves the arguments as they were. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Rbf.KernelArray

end
-- ==== Proof.lean ====
/-
  The certificate of a radial-basis-function network computed by one TPU kernel against its plain reference.

  Both programs compute, for each of 131072 samples `x_p` (64 features), 512 centres `c_h` with widths `σ_h`,
  weights `w` and biases `b`:
    hidden  h ↦ exp (−(‖x_p‖² + ‖c_h‖² − 2⟨x_p, c_h⟩) / (2·σ_h·σ_h)),
    out     o ↦ ∑ h, hidden h · w h o + b o,
    result  o ↦ out o / ∑ o', out o'.
  The kernel takes the batch in 64 blocks of 2048 rows and is handed `‖c_h‖²`, `σ` and `b` as one-row arrays the
  host prepares; it narrows the operands of its two matrix products to bf16, which is the identity on extended
  reals, and writes the negation as `0 − v`. A row of the result depends on its own row of the samples only, so
  the blocks' results are the rows of one function of the five arrays (RbfSpec.lean); the reference's
  operations, read one at a time, are the same function (RbfReference.lean). No step uses that the inputs are
  finite: the two sides are the same sums, products, quotients and exponentials in the same grouping, and the
  only law used is `0 − a = −a` (and `0 + a = a` for the zero a host sum starts from).

  The three frames are the generated ones (the reference's is its generated run with the result dropped); the
  idealization rewrote nothing, so `preserves` is trivial.
-/
import proofs.«175615_j58171037057369_1_alg».proof.Defs
import proofs.«175615_j58171037057369_1_alg».proof.Proof.Gen.Kernel
import proofs.«175615_j58171037057369_1_alg».proof.Proof.Gen.Kernel.Skeleton
import proofs.«175615_j58171037057369_1_alg».proof.Proof.Gen.Kernel.Launch
import proofs.«175615_j58171037057369_1_alg».proof.Proof.Gen.Kernel.Points
import proofs.«175615_j58171037057369_1_alg».proof.Proof.Gen.Kernel.Frame
import proofs.«175615_j58171037057369_1_alg».proof.Proof.Gen.KernelIdeal
import proofs.«175615_j58171037057369_1_alg».proof.Proof.Gen.KernelIdeal.Skeleton
import proofs.«175615_j58171037057369_1_alg».proof.Proof.Gen.KernelIdeal.Launch
import proofs.«175615_j58171037057369_1_alg».proof.Proof.Gen.KernelIdeal.Points
import proofs.«175615_j58171037057369_1_alg».proof.Proof.Gen.KernelIdeal.Frame
import proofs.«175615_j58171037057369_1_alg».proof.Proof.Gen.ReferenceIdeal
import proofs.«175615_j58171037057369_1_alg».proof.Proof.Gen.KernelIdeal.Value
import proofs.«175615_j58171037057369_1_alg».proof.Proof.Gen.ReferenceIdeal.Run
import proofs.«175615_j58171037057369_1_alg».proof.Proof.Gen.ReferenceIdeal.Read
import proofs.«175615_j58171037057369_1_alg».proof.Proof.Gen.Pre_finite_inputs
import proofs.«175615_j58171037057369_1_alg».proof.Proof.RbfSpec
import proofs.«175615_j58171037057369_1_alg».proof.Proof.RbfReference
import proofs.«175615_j58171037057369_1_alg».proof.Proof.RbfKernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the network of those arguments. -/
theorem algebraic : Cert.algebraic_KernelIdeal_ReferenceIdeal := by
  intro m ρ m' ρ' _ hagree
  refine ⟨fun c => Cert.Rbf.KernelArray.result m c, Cert.Rbf.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Rbf.Reference.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
